-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x256x128 : Shape := ⟨3, ![32, 256, 128]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_

variable [Facts]

def fn {F : FTy → Type} [FloatOps F] (main_arg0 : FVec F S4x2048x4096 .f32) (main_arg1 : FVec F S32x256x128 .f32) (main_arg2 : IVec S4096x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  main_v8
-- ==== Kernel.lean ====
abbrev S4x2048x4096 : Shape := ⟨3, ![4, 2048, 4096]⟩
abbrev S32x256x128 : Shape := ⟨3, ![32, 256, 128]⟩
abbrev S4096x32 : Shape := ⟨2, ![4096, 32]⟩
abbrev S32 : Shape := ⟨1, ![32]⟩
abbrev S1x32 : Shape := ⟨2, ![1, 32]⟩
abbrev S_ : Shape := ⟨0, ![]⟩
abbrev S4096x32x1 : Shape := ⟨3, ![4096, 32, 1]⟩
abbrev S4096x32x2 : Shape := ⟨3, ![4096, 32, 2]⟩
abbrev S4096x32x128 : Shape := ⟨3, ![4096, 32, 128]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 31
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S32x256x128, .f32⟩
  | .hbm, ⟨2, _⟩ => ⟨S4096x32, .i32⟩
  | .hbm, ⟨3, _⟩ => ⟨S32, .i32⟩
  | .hbm, ⟨4, _⟩ => ⟨S1x32, .i32⟩
  | .hbm, ⟨5, _⟩ => ⟨S_, .i32⟩
  | .hbm, ⟨6, _⟩ => ⟨S1x32, .i32⟩
  | .hbm, ⟨7, _⟩ => ⟨S1x32, .i1⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S1x32, .i32⟩
  | .hbm, ⟨12, _⟩ => ⟨S_, .i32⟩
  | .hbm, ⟨13, _⟩ => ⟨S4096x32, .i32⟩
  | .hbm, ⟨14, _⟩ => ⟨S4096x32, .i1⟩
  | .hbm, ⟨15, _⟩ => ⟨S_, .i32⟩
  | .hbm, ⟨16, _⟩ => ⟨S4096x32, .i32⟩
  | .hbm, ⟨17, _⟩ => ⟨S4096x32, .i32⟩
  | .hbm, ⟨18, _⟩ => ⟨S4096x32, .i32⟩
  | .hbm, ⟨19, _⟩ => ⟨S4096x32, .i32⟩
  | .hbm, ⟨20, _⟩ => ⟨S4096x32x1, .i32⟩
  | .hbm, ⟨21, _⟩ => ⟨S4096x32x1, .i32⟩
  | .hbm, ⟨22, _⟩ => ⟨S4096x32x2, .i32⟩
  | .hbm, ⟨23, _⟩ => ⟨S4096x32x128, .f32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S8192x4096, .bf16⟩
  | .hbm, ⟨28, _⟩ => ⟨S4096x4096, .bf16⟩
  | .hbm, ⟨29, _⟩ => ⟨S8192x4096, .f32⟩
  | .hbm, ⟨30, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S4096x32 : S_.BroadcastsInDim S4096x32 (![] : Fin 0 → Fin S4096x32.rank)
  bcast_S1x32_S4096x32_0_1 : S1x32.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  shapeCasts_S4096x32x128_S4096x4096 : S4096x32x128.ShapeCasts S4096x4096
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  gather_S32x256x128_S4096x32x2_S4096x32x128_2_01_n_n_01_2_11128_wf : GatherDims.WF S32x256x128 S4096x32x2 S4096x32x128 [2] [0, 1] [] [0, 1] [] 2 ![1, 1, 128]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S32x256x128_S4096x32x2_S4096x32x128_2_01_n_n_01_2_11128 : GatherDims S32x256x128 S4096x32x2 S4096x32x128 where
  offsetDims := [2]
  collapsedSliceDims := [0, 1]
  operandBatchingDims := []
  startIndicesBatchingDims := []
  startIndexMap := [0, 1]
  indexVectorDim := 2
  sliceSizes := ![1, 1, 128]
  wf := gather_S32x256x128_S4096x32x2_S4096x32x128_2_01_n_n_01_2_11128_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S32x256x128 : Shape := ⟨3, ![32, 256, 128]⟩
abbrev S4096x32 : Shape := ⟨2, ![4096, 32]⟩
abbrev S32 : Shape := ⟨1, ![32]⟩
abbrev S1x32 : Shape := ⟨2, ![1, 32]⟩
abbrev S_ : Shape := ⟨0, ![]⟩
abbrev S4096x32x1 : Shape := ⟨3, ![4096, 32, 1]⟩
abbrev S4096x32x2 : Shape := ⟨3, ![4096, 32, 2]⟩
abbrev S4096x32x128 : Shape := ⟨3, ![4096, 32, 128]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x256x128, .f32⟩
  | .hbm, ⟨2, _⟩ => ⟨S4096x32, .i32⟩
  | .hbm, ⟨3, _⟩ => ⟨S32, .i32⟩
  | .hbm, ⟨4, _⟩ => ⟨S1x32, .i32⟩
  | .hbm, ⟨5, _⟩ => ⟨S_, .i32⟩
  | .hbm, ⟨6, _⟩ => ⟨S1x32, .i32⟩
  | .hbm, ⟨7, _⟩ => ⟨S1x32, .i1⟩
  | .hbm, ⟨8, _⟩ => ⟨S_, .i32⟩
  | .hbm, ⟨9, _⟩ => ⟨S1x32, .i32⟩
  | .hbm, ⟨10, _⟩ => ⟨S1x32, .i32⟩
  | .hbm, ⟨11, _⟩ => ⟨S1x32, .i32⟩
  | .hbm, ⟨12, _⟩ => ⟨S_, .i32⟩
  | .hbm, ⟨13, _⟩ => ⟨S4096x32, .i32⟩
  | .hbm, ⟨14, _⟩ => ⟨S4096x32, .i1⟩
  | .hbm, ⟨15, _⟩ => ⟨S_, .i32⟩
  | .hbm, ⟨16, _⟩ => ⟨S4096x32, .i32⟩
  | .hbm, ⟨17, _⟩ => ⟨S4096x32, .i32⟩
  | .hbm, ⟨18, _⟩ => ⟨S4096x32, .i32⟩
  | .hbm, ⟨19, _⟩ => ⟨S4096x32, .i32⟩
  | .hbm, ⟨20, _⟩ => ⟨S4096x32x1, .i32⟩
  | .hbm, ⟨21, _⟩ => ⟨S4096x32x1, .i32⟩
  | .hbm, ⟨22, _⟩ => ⟨S4096x32x2, .i32⟩
  | .hbm, ⟨23, _⟩ => ⟨S4096x32x128, .f32⟩
  | .hbm, ⟨24, _⟩ => ⟨S4096x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S4096x32 : S_.BroadcastsInDim S4096x32 (![] : Fin 0 → Fin S4096x32.rank)
  bcast_S1x32_S4096x32_0_1 : S1x32.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  shapeCasts_S4096x32x128_S4096x4096 : S4096x32x128.ShapeCasts S4096x4096
  gather_S32x256x128_S4096x32x2_S4096x32x128_2_01_n_n_01_2_11128_wf : GatherDims.WF S32x256x128 S4096x32x2 S4096x32x128 [2] [0, 1] [] [0, 1] [] 2 ![1, 1, 128]
  dot_S4x2048x4096_S4096x4096_S4x2048x4096_2_1_01_0_n_n_wf : DotDims.WF S4x2048x4096 S4096x4096 S4x2048x4096 [2] [1] [0, 1] [0] [] []

variable [Facts₀]

def gather_S32x256x128_S4096x32x2_S4096x32x128_2_01_n_n_01_2_11128 : GatherDims S32x256x128 S4096x32x2 S4096x32x128 where
  offsetDims := [2]
  collapsedSliceDims := [0, 1]
  operandBatchingDims := []
  startIndicesBatchingDims := []
  startIndexMap := [0, 1]
  indexVectorDim := 2
  sliceSizes := ![1, 1, 128]
  wf := gather_S32x256x128_S4096x32x2_S4096x32x128_2_01_n_n_01_2_11128_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves in the accumulator and in the output block, as values.

  The body of the matrix-product kernel, at a point whose position along the contracted grid axis is zero,
  fills the accumulator with zeros, reads it back, adds the product of the point's two operand blocks and stores
  the sum; at every other point it adds the product to what the point before left.  Either way the output block
  receives a copy of the accumulator.  Below, each of the four stored arrays (accumulator and output block, in
  the resetting case and in the accumulating case) is identified with one pure term: `step acc a b`, the
  accumulator contents `acc` plus the product of the blocks `a` and `b`, where in the resetting case `acc` is the
  zero splat.  The statements hold for any reading of the floats.
-/
import proofs.«177569_j72430328479853_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PQ

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-- Reading a whole buffer back after several whole-buffer stores sees the last store's value. -/
theorem readCov_cons_unit_zero {Val : EltTy → Type} [∀ e, Nonempty (Val e)] {S : Shape} {e : EltTy}
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The zero splat the resetting case stores. -/
abbrev zeros : FVec F S1024x1024 .f32 := k0_pay1 (F := F)

/-- One accumulation step: the accumulator's contents plus the product of the two operand blocks. -/
abbrev step (acc : Vec F S1024x1024 .f32) (a b : Vec F S1024x1024 .bf16) : FVec F S1024x1024 .f32 := k0_pay2 acc a b

section
variable (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole)

/-- Resetting case, the accumulator: zeros, then zeros plus the product. -/
theorem acc_reset (hc : cond0_0 i) (x0 x1 : Vec F S1024x1024 .bf16) :
    sout0_A_0 c i a3 h3 a4 h4 a5 h5 a6 h6 hc x0 x1 = step (zeros (F := F)) x0 x1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Resetting case, the output block: the accumulator read back after both stores. -/
theorem out_reset (hc : cond0_0 i) (x0 x1 : Vec F S1024x1024 .bf16) :
    out0_A_2 c i a3 h3 a4 h4 a5 h5 a6 h6 hc x0 x1 = step (zeros (F := F)) x0 x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1024x1024) hz, readCov_cons_unit_zero (S := S1024x1024) _ hz,
    View.readCov_unit_zero (S := S1024x1024) _ hz]
  simp only [View.readAt_eq_ld, h3.read_unread, h4.read_unread, View.ld_unit_zero (S := S1024x1024) hz]

/-- Accumulating case, the accumulator: what the point before left, plus the product. -/
theorem acc_add (hc : ¬cond0_0 i) (x0 x1 : Vec F S1024x1024 .bf16) (xs : Vec F S1024x1024 .f32) :
    sout0_B_0 c i a3 h3 a4 h4 a5 h5 a6 h6 hc x0 x1 xs = step xs x0 x1 := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

/-- Accumulating case, the output block: the accumulator read back after the store. -/
theorem out_add (hc : ¬cond0_0 i) (x0 x1 : Vec F S1024x1024 .bf16) (xs : Vec F S1024x1024 .f32) :
    out0_B_2 c i a3 h3 a4 h4 a5 h5 a6 h6 hc x0 x1 xs = step xs x0 x1 := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end

end Cert.KernelIdeal.PQ

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.StepValue.lean ====
/-
  One accumulation step at an index, over the extended reals.

  At the ideal values the kernel's block product is the textbook one: entry `(p, q)` of the product of two
  1024 × 1024 blocks is the sum over `kk` of `a (p, kk) * b (kk, q)`, added to the accumulator's entry; and the
  zero splat is the extended real `0` everywhere.
-/
import proofs.«177569_j72430328479853_1_alg».proof.Proof.Gen.KernelIdeal.Skeleton
import proofs.«177569_j72430328479853_1_alg».proof.Proof.LibRowOps
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open scoped BigOperators

namespace Cert.KernelIdeal.PQ

open Cert.KernelIdeal Cert.KernelIdeal.Gen

/-- Entry `(p, q)` of the product of two blocks. -/
def blockProd (a b : Vec Ideal S1024x1024 .bf16) (p q : Fin 1024) : EReal :=
  ∑ kk : Fin 1024, a (ix2 p kk) * b (ix2 kk q)

/-- The zero splat is `0` at every index. -/
theorem zeros_apply (i : S1024x1024.Idx) : k0_pay1 (F := Ideal) i = 0 := by
  unfold k0_pay1
  simp only [shapeCast_self]
  exact Ideal.ofBits_zero_f32

/-- The step at `(p, q)`: the accumulator there plus the block product there. -/
theorem step_apply (acc : Vec Ideal S1024x1024 .f32) (a b : Vec Ideal S1024x1024 .bf16) (p q : Fin 1024) :
    k0_pay2 (F := Ideal) acc a b (ix2 p q) = acc (ix2 p q) + blockProd a b p q := by
  unfold k0_pay2
  simp only [shapeCast_self]
  exact congrArg (acc (ix2 p q) + ·)
    (RowOps.matmul_plain_apply dot_S1024x1024_S1024x1024_S1024x1024_1_0_0_1_n_n rfl none a b p q)

end Cert.KernelIdeal.PQ

end
-- ==== Proof.Fold.lean ====
/-
  The accumulator over a run of four grid points.

  The grid is 8 × 4 × 4 with the contracted axis innermost, so the points come in runs of four: the first point of
  a run (position ≡ 0 mod 4) resets the accumulator, each of the other three adds its block product to what the
  point before left, and the output block — a copy of the accumulator — is written back after the run's last point
  (position ≡ 3 mod 4).  What the accumulator holds after any point is therefore the fold of the steps from the
  run's first point; at the ideal values an entry of that fold is `0` plus the sum of the block products of the
  run's points up to it, and after the last point of a run the sum is over all four.
-/
import proofs.«177569_j72430328479853_1_alg».proof.Proof.Pieces
import proofs.«177569_j72430328479853_1_alg».proof.Proof.StepValue

noncomputable section

open Idealize.ShloMosaic Idealize.ShloMosaic.TcCoe Idealize.SL.Sem Idealize.ShloMosaic.ValueIdx
open scoped BigOperators

namespace Cert.KernelIdeal.PQ

open Cert.KernelIdeal Cert.KernelIdeal.Gen

section AnyFloats

variable {F : FTy → Type} [FloatOps F]
variable (m : (ℓ : Loc nD τ sig) → Buf (Elt F) ℓ)

/-- The left operand's block at a grid point, at its literal type. -/
abbrev ablk (c : Dev nD) (t : Fin cfg0.N) : Vec F S1024x1024 .bf16 := iblk m c 0 t
/-- The right operand's block at a grid point. -/
abbrev bblk (c : Dev nD) (t : Fin cfg0.N) : Vec F S1024x1024 .bf16 := iblk m c 1 t

/-- After the first point of a run the accumulator is the zero splat plus that point's product. -/
theorem acc_at_reset (c : Dev nD) (t : Fin cfg0.N) (h0 : t.val % 4 = 0) :
    (outsAt0 m c t.val t.isLt).2 = step (zeros (F := F)) (ablk m c t) (bblk m c t) := by
  rw [outsAt0_A m c t h0]; dsimp only
  exact acc_reset c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- After any other point it is what the point before left, plus this point's product. -/
theorem acc_at_add (c : Dev nD) (t : Fin cfg0.N) (h0 : ¬t.val % 4 = 0) :
    (outsAt0 m c t.val t.isLt).2
      = step (outsAt0 m c (t.val - 1) (Nat.lt_of_le_of_lt (Nat.sub_le _ _) t.isLt)).2 (ablk m c t) (bblk m c t) := by
  rw [outsAt0_B m c t h0]; dsimp only
  exact acc_add c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2

/-- At such a point the output block holds the same array as the accumulator. -/
theorem out_at_add (c : Dev nD) (t : Fin cfg0.N) (h0 : ¬t.val % 4 = 0) :
    (outsAt0 m c t.val t.isLt).1 = (outsAt0 m c t.val t.isLt).2 := by
  rw [outsAt0_B m c t h0]; dsimp only
  exact (out_add c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2).trans
    (acc_add c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2).symm

/-- The accumulator after point `t` is the fold of the steps from the first point of `t`'s run. -/
theorem acc_eq_fold (c : Dev nD) (t : Fin cfg0.N) (hb : 4 * (t.val / 4) + t.val % 4 < cfg0.N) :
    (outsAt0 m c t.val t.isLt).2
      = Pipeline.accAt (N := cfg0.N) (fun n h => step (zeros (F := F)) (ablk m c ⟨n, h⟩) (bblk m c ⟨n, h⟩))
          (fun n h acc => step acc (ablk m c ⟨n, h⟩) (bblk m c ⟨n, h⟩)) (4 * (t.val / 4)) (t.val % 4) hb :=
  Pipeline.eq_accAt_of_mod (N := cfg0.N) (fun n h => (outsAt0 m c n h).2) 4
    (fun n h => step (zeros (F := F)) (ablk m c ⟨n, h⟩) (bblk m c ⟨n, h⟩))
    (fun n h acc => step acc (ablk m c ⟨n, h⟩) (bblk m c ⟨n, h⟩))
    (fun n h hm => acc_at_reset m c ⟨n, h⟩ hm)
    (fun n h hm => acc_at_add m c ⟨n + 1, h⟩ hm)
    (by decide) t.val t.isLt hb

end AnyFloats

section AtIdeal

variable (m : (ℓ : Loc nD τ sig) → Buf (Elt Ideal) ℓ)

/-- The step at any index of the block. -/
theorem step_at (acc : Vec Ideal S1024x1024 .f32) (a b : Vec Ideal S1024x1024 .bf16) (i : S1024x1024.Idx) :
    step acc a b i = acc i + blockProd a b (i 0) (i 1) := by
  obtain ⟨p, q, rfl⟩ : ∃ p q, i = ix2 p q := ⟨i 0, i 1, eq_ix2 i⟩
  exact step_apply acc a b p q

/-- Point `n`'s addend: the product of its two operand blocks (zero past the grid, where it is never used). -/
def addend (c : Dev nD) (n : ℕ) (i : S1024x1024.Idx) : EReal :=
  if h : n < cfg0.N then blockProd (ablk m c ⟨n, h⟩) (bblk m c ⟨n, h⟩) (i 0) (i 1) else 0

theorem addend_of_lt (c : Dev nD) (n : ℕ) (h : n < cfg0.N) (i : S1024x1024.Idx) :
    addend m c n i = blockProd (ablk m c ⟨n, h⟩) (bblk m c ⟨n, h⟩) (i 0) (i 1) := dif_pos h

/-- After the last point of a run the accumulator's entry is the sum of the run's four block products. -/
theorem acc_at_flush (c : Dev nD) (t : Fin cfg0.N) (h3 : t.val % 4 = 3) (i : S1024x1024.Idx) :
    (outsAt0 m c t.val t.isLt).2 i = ∑ s ∈ Finset.range 4, addend m c (4 * (t.val / 4) + s) i := by
  have hN : cfg0.N = 128 := N_0
  have hb : 4 * (t.val / 4) + t.val % 4 < cfg0.N := by have := t.isLt; omega
  have hsum := Pipeline.accAt_add_apply (N := cfg0.N)
    (fun n h => step (zeros (F := Ideal)) (ablk m c ⟨n, h⟩) (bblk m c ⟨n, h⟩))
    (fun n h acc => step acc (ablk m c ⟨n, h⟩) (bblk m c ⟨n, h⟩))
    (fun _ => (0 : EReal)) (addend m c) (4 * (t.val / 4)) 3
    (fun h i => by
      rw [addend_of_lt m c _ h i]
      exact (step_at _ _ _ i).trans (congrArg (· + _) (zeros_apply i)))
    (fun n h acc i _ _ => by
      rw [addend_of_lt m c n h i]
      exact step_at acc _ _ i)
    (t.val % 4) (by omega) hb i
  refine (congrFun (acc_eq_fold m c t hb) i).trans (hsum.trans ?_)
  rw [h3, zero_add]

/-- And so is the output block's entry, which is what that point writes back. -/
theorem out_at_flush (c : Dev nD) (t : Fin cfg0.N) (h3 : t.val % 4 = 3) (i : S1024x1024.Idx) :
    (outsAt0 m c t.val t.isLt).1 i = ∑ s ∈ Finset.range 4, addend m c (4 * (t.val / 4) + s) i := by
  rw [out_at_add m c t (by omega)]
  exact acc_at_flush m c t h3 i

end AtIdeal

end Cert.KernelIdeal.PQ

end
-- ==== Proof.SumSplit.lean ====
/-
  A sum over 4096 consecutive positions, cut into four runs of 1024.

  The kernel contracts the 4096-long axis a quarter at a time and adds the four partial sums; the reference
  contracts it in one sum.  In any commutative additive monoid — the extended reals among them, where the
  infinities make addition non-cancellative but leave it commutative and associative — the two groupings agree:
  a sum over `range (n * J)` is the sum over the `n` runs of the sums over each run's `J` positions.
-/
import Mathlib.Algebra.BigOperators.Group.Finset.Basic
import Mathlib.Data.Fintype.BigOperators

open scoped BigOperators

namespace SumSplit

variable {β : Type*} [AddCommMonoid β]

/-- `n` runs of `J` consecutive positions: position `s * J + kk` is place `kk` of run `s`. -/
theorem sum_range_runs (g : ℕ → β) (J : ℕ) :
    ∀ n : ℕ, ∑ k ∈ Finset.range (n * J), g k = ∑ s ∈ Finset.range n, ∑ kk ∈ Finset.range J, g (s * J + kk)
  | 0 => by simp
  | n + 1 => by
    rw [Nat.succ_mul, Finset.sum_range_add, sum_range_runs g J n, Finset.sum_range_succ]

/-- The same over the finite index types the two programs sum over: 4096 positions as four runs of 1024. -/
theorem sum_fin_4096 (g : ℕ → β) :
    ∑ k : Fin 4096, g k.val = ∑ s ∈ Finset.range 4, ∑ kk : Fin 1024, g (s * 1024 + kk.val) := by
  rw [Fin.sum_univ_eq_sum_range (fun k => g k) 4096, show (4096 : ℕ) = 4 * 1024 from rfl, sum_range_runs g 1024 4]
  exact Finset.sum_congr rfl fun s _ => (Fin.sum_univ_eq_sum_range (fun kk => g (s * 1024 + kk)) 1024).symm

end SumSplit
-- ==== Proof.Blocks.lean ====
/-
  From blocks to the product array.

  Grid point `t` of the 8 × 4 × 4 grid has row-block `t / 16`, column-block `t / 4 % 4` and contraction-block `t % 4`.
  The left operand's block there is rows `t / 16 · 1024 …` and columns `t % 4 · 1024 …` of the 8192 × 4096 left
  array; the right operand's block is rows `t % 4 · 1024 …` and columns `t / 4 % 4 · 1024 …` of the 4096 × 4096
  right array.  Over the four points of a run the contraction-block runs through 0, 1, 2, 3 while the other two
  stay put, so the four block products add up — a 4096-long sum cut into four runs of 1024 — to the full product's
  entry.  The output block written back after the run's last point is therefore that block of the full product,
  the 32 written-back blocks tile the 8192 × 4096 result, and the result array ends holding the product.
-/
import proofs.«177569_j72430328479853_1_alg».proof.Proof.Fold
import proofs.«177569_j72430328479853_1_alg».proof.Proof.SumSplit

noncomputable section

open Idealize.ShloMosaic Idealize.ShloMosaic.TcCoe Idealize.SL.Sem Idealize.ShloMosaic.ValueIdx
open Idealize.ShloMosaic.Pipeline (Dat)
open scoped BigOperators

namespace Cert.KernelIdeal.PQ

open Cert.KernelIdeal Cert.KernelIdeal.Gen

/-- The full product of an 8192 × 4096 array with a 4096 × 4096 array, entry by entry. -/
def mm (A : Vec Ideal S8192x4096 .bf16) (B : Vec Ideal S4096x4096 .bf16) : S8192x4096.Idx → EReal :=
  fun i => ∑ k : Fin 4096, A (ix2 (i 0) k) * B (ix2 k (i 1))

/-- The block indices of the three windows at a grid point, decided over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

variable (m : (ℓ : Loc nD τ sig) → Buf (Elt Ideal) ℓ)

/-- The left array as the region finds it. -/
abbrev aarr (c : Dev nD) : Vec Ideal S8192x4096 .bf16 := V m c main_v20
/-- The right array as the region finds it. -/
abbrev barr (c : Dev nD) : Vec Ideal S4096x4096 .bf16 := V m c main_v21

/-- An entry of the left block at a point is the left array's entry at the block's place. -/
theorem ablk_apply (c : Dev nD) (t : Fin cfg0.N) (p kk : Fin 1024) (r : Fin 8192) (k : Fin 4096)
    (hr : r.val = t.val / 16 * 1024 + p.val) (hk : k.val = t.val % 4 * 1024 + kk.val) :
    ablk m c t (ix2 p kk) = aarr m c (ix2 r k) := by
  obtain ⟨e0, e1, -, -, -, -⟩ := idx_facts t
  show iblk m c 0 t (ix2 p kk) = _
  unfold iblk
  rw [View.read_apply]
  show V m c main_v20 _ = V m c main_v20 _
  congr 1
  funext a; apply Fin.ext
  match a with
  | ⟨0, _⟩ => show win0_0.index t (0 : Fin 2) * 1024 + 1 * p.val = r.val; rw [e0]; omega
  | ⟨1, _⟩ => show win0_0.index t (1 : Fin 2) * 1024 + 1 * kk.val = k.val; rw [e1]; omega

/-- An entry of the right block at a point is the right array's entry at the block's place. -/
theorem bblk_apply (c : Dev nD) (t : Fin cfg0.N) (kk q : Fin 1024) (k o : Fin 4096)
    (hk : k.val = t.val % 4 * 1024 + kk.val) (ho : o.val = t.val / 4 % 4 * 1024 + q.val) :
    bblk m c t (ix2 kk q) = barr m c (ix2 k o) := by
  obtain ⟨-, -, e2, e3, -, -⟩ := idx_facts t
  show iblk m c 1 t (ix2 kk q) = _
  unfold iblk
  rw [View.read_apply]
  show V m c main_v21 _ = V m c main_v21 _
  congr 1
  funext a; apply Fin.ext
  match a with
  | ⟨0, _⟩ => show win0_1.index t (0 : Fin 2) * 1024 + 1 * kk.val = k.val; rw [e2]; omega
  | ⟨1, _⟩ => show win0_1.index t (1 : Fin 2) * 1024 + 1 * q.val = o.val; rw [e3]; omega

/-- After the last point of a run, the output block's entry `y` is the full product's entry at the place of `y`
    in the result: the four block products are the four runs of the 4096-long contraction. -/
theorem block_value (c : Dev nD) (t : Fin cfg0.N) (h3 : t.val % 4 = 3) (y : S1024x1024.Idx) (r : Fin 8192) (o : Fin 4096)
    (hr : r.val = t.val / 16 * 1024 + (y 0).val) (ho : o.val = t.val / 4 % 4 * 1024 + (y 1).val) :
    (outsAt0 m c t.val t.isLt).1 y = mm (aarr m c) (barr m c) (ix2 r o) := by
  rw [out_at_flush m c t h3 y]
  show _ = ∑ k : Fin 4096, aarr m c (ix2 r k) * barr m c (ix2 k o)
  let g : ℕ → EReal := fun n => if h : n < 4096 then aarr m c (ix2 r ⟨n, h⟩) * barr m c (ix2 ⟨n, h⟩ o) else 0
  have hg : ∀ k : Fin 4096, aarr m c (ix2 r k) * barr m c (ix2 k o) = g k.val := fun k => by
    show _ = if h : k.val < 4096 then _ else _
    rw [dif_pos k.isLt]
  rw [Finset.sum_congr rfl (fun k _ => hg k), SumSplit.sum_fin_4096 g]
  refine Finset.sum_congr rfl fun s hs => ?_
  have hs4 : s < 4 := Finset.mem_range.mp hs
  have hN : cfg0.N = 128 := N_0
  have ht : t.val < 128 := hN ▸ t.isLt
  have hn : 4 * (t.val / 4) + s < cfg0.N := by omega
  rw [addend_of_lt m c _ hn y]
  unfold blockProd
  refine Finset.sum_congr rfl fun kk _ => ?_
  have hkk : s * 1024 + kk.val < 4096 := by have := kk.isLt; omega
  show _ = if h : s * 1024 + kk.val < 4096 then _ else _
  rw [dif_pos hkk,
    ablk_apply m c ⟨4 * (t.val / 4) + s, hn⟩ (y 0) kk r ⟨s * 1024 + kk.val, hkk⟩
      (by show r.val = (4 * (t.val / 4) + s) / 16 * 1024 + (y 0).val; omega)
      (by show s * 1024 + kk.val = (4 * (t.val / 4) + s) % 4 * 1024 + kk.val; omega),
    bblk_apply m c ⟨4 * (t.val / 4) + s, hn⟩ kk (y 1) ⟨s * 1024 + kk.val, hkk⟩ o
      (by show s * 1024 + kk.val = (4 * (t.val / 4) + s) % 4 * 1024 + kk.val; omega)
      (by show o.val = (4 * (t.val / 4) + s) / 4 % 4 * 1024 + (y 1).val; omega)]

/-- What a flushing point writes back is its block of the full product. -/
theorem flushed_eq (c : Dev nD) (t : Fin cfg0.N) (hf : (cfg0.win 2).flush t = true) :
    (dats m 0 c).flushed 2 t = ((cfg0.win 2).blk t).view.read (Elt Ideal) (mm (aarr m c) (barr m c)) := by
  have h3 : t.val % 4 = 3 := (flush0_2 t).mp hf
  obtain ⟨-, -, -, -, e4, e5⟩ := idx_facts t
  show (cfg0.win 2).cut (grid0.coords t) ((dats m 0 c).after 2 t) = _
  rw [after0_2]
  funext y
  rw [View.read_apply]
  show (outsAt0 m c t.val t.isLt).1 y = mm (aarr m c) (barr m c) (((cfg0.win 2).blk t).view.emb y)
  refine (block_value m c t h3 y (((cfg0.win 2).blk t).view.emb y 0) (((cfg0.win 2).blk t).view.emb y 1) ?_ ?_).trans
    (congrArg (mm (aarr m c) (barr m c)) (eq_ix2 _).symm)
  · show win0_2.index t (0 : Fin 2) * 1024 + 1 * (y 0).val = _; rw [e4]; omega
  · show win0_2.index t (1 : Fin 2) * 1024 + 1 * (y 1).val = _; rw [e5]; omega

/-- An index of the result is in point `t`'s block iff each coordinate is in the block's range. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v22).slice (win0_2.rect t)).set ↔ _
  rw [View.set_slice_whole, Rect.mem_set_unit]
  exact Iff.rfl

/-- Every index of the result lies in the block some run's last point writes back. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  refine ⟨⟨(i 0).val / 1024 * 16 + (i 1).val / 1024 * 4 + 3, by omega⟩, (flush0_2 _).mpr (by show ((i 0).val / 1024 * 16 + (i 1).val / 1024 * 4 + 3) % 4 = 3; omega), ?_⟩
  obtain ⟨-, -, -, -, e4, e5⟩ := idx_facts ⟨(i 0).val / 1024 * 16 + (i 1).val / 1024 * 4 + 3, by omega⟩
  rw [mem_blk]
  intro a
  match a with
  | ⟨0, _⟩ =>
    show win0_2.index _ (0 : Fin 2) * 1024 ≤ (i 0).val ∧ (i 0).val < win0_2.index _ (0 : Fin 2) * 1024 + 1024
    rw [e4]; show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_2.index _ (1 : Fin 2) * 1024 ≤ (i 1).val ∧ (i 1).val < win0_2.index _ (1 : Fin 2) * 1024 + 1024
    rw [e5]; show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The result array after the run is the full product of the two arrays the region found. -/
theorem final (c : Dev nD) : (dats m 0 c).arrAt 2 cfg0.N = mm (aarr m c) (barr m c) :=
  (dats m 0 c).arrAt_eq_of_cover 2 (mm (aarr m c) (barr m c)) (fun t hf => flushed_eq m c t hf) cover

end Cert.KernelIdeal.PQ

end
-- ==== Proof.Spec.lean ====
/-
  The function both programs compute.

  A codebook-quantised linear layer: the weight matrix `W` (4096 output features × 4096 input features) is
  assembled from the codebooks by the assignments, and the layer sends the input `x` (4 × 2048 rows of 4096
  features) to `x · Wᵀ`.  Entry `(b, s, o)` of the result is the sum over the input feature `k` of
  `x (b, s, k) * W (o, k)`, over the extended reals.
-/
import Idealize.ShloMosaic.Lib.ValueIdx

noncomputable section

open Idealize.ShloMosaic Idealize.ShloMosaic.ValueIdx
open scoped BigOperators

namespace PQSpec

/-- `x · Wᵀ`, entry by entry. -/
def layer (x : (⟨3, ![4, 2048, 4096]⟩ : Shape).Idx → EReal) (W : (⟨2, ![4096, 4096]⟩ : Shape).Idx → EReal) :
    (⟨3, ![4, 2048, 4096]⟩ : Shape).Idx → EReal :=
  fun i => ∑ k : Fin 4096, x (ix3 (i 0) (i 1) k) * W (ix2 (i 2) k)

theorem layer_apply (x : (⟨3, ![4, 2048, 4096]⟩ : Shape).Idx → EReal) (W : (⟨2, ![4096, 4096]⟩ : Shape).Idx → EReal)
    (b : Fin 4) (s : Fin 2048) (o : Fin 4096) :
    layer x W (ix3 b s o) = ∑ k : Fin 4096, x (ix3 b s k) * W (ix2 o k) := rfl

end PQSpec

end
-- ==== Proof.HostSide.lean ====
/-
  The kernel's whole program: host lines before and after the product.

  Before the region the host builds the weight matrix `W` (a gather of the codebooks by the assignments, reshaped
  to 4096 × 4096), transposes it, flattens the input `x` to 8192 rows, and narrows both to bf16 — at the ideal
  values the narrowing changes nothing.  So the region's left array at `(b · 2048 + s, k)` is `x (b, s, k)`, its right
  array at `(k, o)` is `W (o, k)`, and the full product at `(b · 2048 + s, o)` is the layer's entry `(b, s, o)`.
  After the region the host reshapes the 8192 × 4096 product back to 4 × 2048 × 4096, which puts that entry at
  `(b, s, o)`.  The weight matrix is kept as one definition and never opened: the reference builds the same one.
-/
import proofs.«177569_j72430328479853_1_alg».proof.Proof.Blocks
import proofs.«177569_j72430328479853_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.PQ

open Cert.KernelIdeal Cert.KernelIdeal.Gen

section AnyFloats

variable {F : FTy → Type} [FloatOps F]

/-- The weight matrix: row `o` is the concatenation, over the 32 sub-vectors, of the codebook entries the
    assignments pick for output feature `o`. -/
def weights (x1 : (⟨S32x256x128, .f32⟩ : BufTy).Contents (Elt F)) (x2 : (⟨S4096x32, .i32⟩ : BufTy).Contents (Elt F)) :
    (⟨S4096x4096, .f32⟩ : BufTy).Contents (Elt F) :=
  shapeCast _ (Host.gather gather_S32x256x128_S4096x32x2_S4096x32x128_2_01_n_n_01_2_11128 x1 (concatenate S4096x32x2 2 [⟨S4096x32x1, (broadcastInDim S4096x32x1 ![0, 1] bcast_S4096x32_S4096x32x1_0_1 (broadcastInDim S4096x32 ![0, 1] bcast_S1x32_S4096x32_0_1 (select (cmpi .slt (broadcastInDim S1x32 ![1] bcast_S32_S1x32_1 (iotaInDim S32 32 0)) (broadcastInDim S1x32 ![] bcast_S_S1x32 (constantI S_ 32 0#32))) (addi (broadcastInDim S1x32 ![1] bcast_S32_S1x32_1 (iotaInDim S32 32 0)) (broadcastInDim S1x32 ![] bcast_S_S1x32 (constantI S_ 32 32#32))) (broadcastInDim S1x32 ![1] bcast_S32_S1x32_1 (iotaInDim S32 32 0)))))⟩, ⟨S4096x32x1, (broadcastInDim S4096x32x1 ![0, 1] bcast_S4096x32_S4096x32x1_0_1 (select (cmpi .slt x2 (broadcastInDim S4096x32 ![] bcast_S_S4096x32 (constantI S_ 32 0#32))) (addi x2 (broadcastInDim S4096x32 ![] bcast_S_S4096x32 (constantI S_ 32 256#32))) x2))⟩] concatenates_S4096x32x1_S4096x32x1_S4096x32x2_d2)) shapeCasts_S4096x32x128_S4096x4096

variable (m : (ℓ : Loc nD τ sig) → Buf (Elt F) ℓ)

set_option maxHeartbeats 4000000 in
/-- The left array the region finds: the input flattened to 8192 rows, narrowed. -/
theorem left_eq (c : Dev nD) :
    V m c main_v20 = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v20) = _
  after_results
  rfl

set_option maxHeartbeats 4000000 in
/-- The right array the region finds: the weight matrix transposed, narrowed. -/
theorem right_eq (c : Dev nD) :
    V m c main_v21 = truncf .bf16 (transpose S4096x4096 [1, 0]
      (weights (m ((c : Thread nD τ).loc main_arg1)) (m ((c : Thread nD τ).loc main_arg2))) transposes_S4096x4096_S4096x4096_1_0) bitsLt_bf16_f32 := by
  show StableHlo.after hostOps0 (fun b => m (c, b)) (Proc.devRef .tc main_v21) = _
  after_results
  rfl

/-- The program's result: the region's result array, reshaped. -/
theorem tail_eq (c : Dev nD) :
    Pipeline.afterTail₀ cfgs (dats m) 0 (V0 m) [hostOps1] c main_v23
      = shapeCast S4x2048x4096 ((dats m 0 c).arrAt 2 cfg0.N) shapeCasts_S8192x4096_S4x2048x4096 := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v22)
      = (dats m 0 c).arrAt 2 cfg0.N := Pipeline.withArrays_arr spec0 launch0.win.arr_inj c _ _ 2
  rw [e]
  rfl

end AnyFloats

section AtIdeal

variable (m : (ℓ : Loc nD τ sig) → Buf (Elt Ideal) ℓ) (ρ : Dev nD → PrngReg)

/-- The left array at row `b · 2048 + s` is the input's row `(b, s)`. -/
theorem left_apply (c : Dev nD) (b : Fin 4) (s : Fin 2048) (k : Fin 4096) (r : Fin 8192) (hr : r.val = b.val * 2048 + s.val) :
    aarr m c (ix2 r k) = m ((c : Thread nD τ).loc main_arg0) (ix3 b s k) := by
  show V m c main_v20 (ix2 r k) = _
  rw [left_eq]
  show shapeCast S8192x4096 (m ((c : Thread nD τ).loc main_arg0)) shapeCasts_S4x2048x4096_S8192x4096 (ix2 r k) = _
  exact shapeCast_apply _ _ (ix2 r k) (ix3 b s k) (by
    rw [Shape.rowMajor_val_three, Shape.rowMajor_val_two]
    show (b.val * 2048 + s.val) * 4096 + k.val = r.val * 4096 + k.val
    rw [hr])

/-- The right array at `(k, o)` is the weight matrix at `(o, k)`. -/
theorem right_apply (c : Dev nD) (k o : Fin 4096) :
    barr m c (ix2 k o)
      = weights (m ((c : Thread nD τ).loc main_arg1)) (m ((c : Thread nD τ).loc main_arg2)) (ix2 o k) := by
  show V m c main_v21 (ix2 k o) = _
  rw [right_eq]
  show transpose S4096x4096 [1, 0] (weights (m ((c : Thread nD τ).loc main_arg1)) (m ((c : Thread nD τ).loc main_arg2)))
    transposes_S4096x4096_S4096x4096_1_0 (ix2 k o) = _
  exact transpose_apply _ _ _ (ix2 k o) (ix2 o k) (fun b => match b with | ⟨0, _⟩ => rfl | ⟨1, _⟩ => rfl)

/-- The program's result is the layer of the input and the weight matrix. -/
theorem result_eq (c : Dev nD) :
    Pipeline.afterTail₀ cfgs (dats m) 0 (V0 m) [hostOps1] c main_v23
      = PQSpec.layer (m ((c : Thread nD τ).loc main_arg0))
          (weights (m ((c : Thread nD τ).loc main_arg1)) (m ((c : Thread nD τ).loc main_arg2))) := by
  rw [tail_eq, final]
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [shapeCast_apply _ _ (ix3 b s o) (ix2 ⟨b.val * 2048 + s.val, hr⟩ o) (by
    rw [Shape.rowMajor_val_two, Shape.rowMajor_val_three]
    rfl)]
  rw [PQSpec.layer_apply]
  show ∑ k : Fin 4096, aarr m c (ix2 ⟨b.val * 2048 + s.val, hr⟩ k) * barr m c (ix2 k o) = _
  refine Finset.sum_congr rfl fun k _ => ?_
  rw [left_apply m c b s k ⟨b.val * 2048 + s.val, hr⟩ rfl, right_apply m c k o]

/-- The kernel's run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v23)
        = PQSpec.layer (m ((c.tc : Thread nD τ).loc main_arg0))
            (weights (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end AtIdeal

end Cert.KernelIdeal.PQ

end
-- ==== Proof.RefSide.lean ====
/-
  The reference is the layer.

  The reference's one contraction, `einsum('bsi,oi->bso', x, W)`, read at `(b, s, o)` at the ideal values, is the sum
  over `k` of `x (b, s, k) * W (o, k)`: the layer of `x` and the weight matrix the reference builds.
-/
import proofs.«177569_j72430328479853_1_alg».proof.Proof.Gen.ReferenceIdeal.Read
import proofs.«177569_j72430328479853_1_alg».proof.Proof.Spec

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read

/-- The reference's result as the layer of its first argument and of the weight matrix built from the other two. -/
theorem result_eq (x0 : (⟨S4x2048x4096, .f32⟩ : BufTy).Contents (Elt Ideal)) (x1 : (⟨S32x256x128, .f32⟩ : BufTy).Contents (Elt Ideal))
    (x2 : (⟨S4096x32, .i32⟩ : BufTy).Contents (Elt Ideal)) :
    val_main_v18 (F := Ideal) x0 x1 x2 = PQSpec.layer x0 (val_main_v17 (F := Ideal) x1 x2) := by
  funext i
  rw [val_main_v18_apply]
  show _ = ∑ k : Fin 4096, x0 (ix3 (i 0) (i 1) k) * val_main_v17 (F := Ideal) x1 x2 (ix2 (i 2) k)
  refine Finset.sum_congr rfl fun k _ => ?_
  have el : lidx_main_v18 i k = ix3 (i 0) (i 1) k :=
    funext fun a => Fin.ext (by match a with | ⟨0, _⟩ => rfl | ⟨1, _⟩ => rfl | ⟨2, _⟩ => rfl)
  have er : ridx_main_v18 i k = ix2 (i 2) k :=
    funext fun a => Fin.ext (by match a with | ⟨0, _⟩ => rfl | ⟨1, _⟩ => rfl)
  rw [el, er]
  rfl

end Cert.ReferenceIdeal.RefValue

end
-- ==== Proof.lean ====
/-
  A codebook-quantised linear layer, `x · Wᵀ` with `W` gathered from codebooks: the tiled kernel against the
  one-line reference, over the extended reals.

  Both programs build the same weight matrix `W` on the host (the same gather of the codebooks by the
  assignments, reshaped to 4096 × 4096).  The reference contracts `x` against `W` in one sum of 4096 products per
  entry.  The kernel flattens `x` to 8192 rows, transposes `W`, narrows both to bf16 (the identity at the ideal
  values), and multiplies them in 1024 × 1024 blocks on an 8 × 4 × 4 grid whose innermost axis runs along the
  contraction: four consecutive grid points add their four block products into an accumulator that starts from
  zero, and the accumulator is written out after the fourth.  Each entry of the kernel's result is therefore
  `0` plus four sums of 1024 products, the same 4096 products the reference adds in one sum; addition of extended
  reals is commutative and associative, so the two agree at every input, finite or not.

  The three frames: the kernel's and its idealization's are the generated frame runs; the reference's is its
  generated run with the result dropped.  The idealization rewrote nothing.  For the value claim, Pieces reads what
  a grid point leaves in the accumulator and the output block, StepValue reads one accumulation step at an index,
  Fold folds the steps over a run of four points, Blocks places the blocks in the arrays and recombines the four
  partial sums (SumSplit) into the full product, HostSide carries the host lines around the region, and RefSide
  reads the reference's contraction at an index; Spec is the function both sides are shown to compute.
-/
import proofs.«177569_j72430328479853_1_alg».proof.Defs
import proofs.«177569_j72430328479853_1_alg».proof.Proof.Gen.Kernel
import proofs.«177569_j72430328479853_1_alg».proof.Proof.Gen.Kernel.Skeleton
import proofs.«177569_j72430328479853_1_alg».proof.Proof.Gen.Kernel.Launch
import proofs.«177569_j72430328479853_1_alg».proof.Proof.Gen.Kernel.Points
import proofs.«177569_j72430328479853_1_alg».proof.Proof.Gen.Kernel.Frame
import proofs.«177569_j72430328479853_1_alg».proof.Proof.Gen.KernelIdeal
import proofs.«177569_j72430328479853_1_alg».proof.Proof.Gen.KernelIdeal.Skeleton
import proofs.«177569_j72430328479853_1_alg».proof.Proof.Gen.KernelIdeal.Launch
import proofs.«177569_j72430328479853_1_alg».proof.Proof.Gen.KernelIdeal.Points
import proofs.«177569_j72430328479853_1_alg».proof.Proof.Gen.KernelIdeal.Frame
import proofs.«177569_j72430328479853_1_alg».proof.Proof.Gen.ReferenceIdeal
import proofs.«177569_j72430328479853_1_alg».proof.Proof.Gen.ReferenceIdeal.Run
import proofs.«177569_j72430328479853_1_alg».proof.Proof.Gen.ReferenceIdeal.Read
import proofs.«177569_j72430328479853_1_alg».proof.Proof.Gen.Pre_finite_inputs
import proofs.«177569_j72430328479853_1_alg».proof.Proof.HostSide
import proofs.«177569_j72430328479853_1_alg».proof.Proof.RefSide
import Idealize.ShloMosaic.Adequacy
import Idealize.ShloMosaic.Init

noncomputable section

namespace Cert.Proof

open Idealize.ShloMosaic Idealize.SL.Sem

/-- The kernel's frame: its generated frame run. -/
theorem frame_k : Cert.frame_Kernel := fun m ρ _ => Cert.Kernel.Gen.frame m ρ

/-- The idealized kernel's frame: the same run read at the ideal values. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The weight matrix the kernel's host lines build is the one the reference's build: the same operations of the
    same two arguments. -/
theorem weights_eq (x1 : (⟨Cert.KernelIdeal.S32x256x128, .f32⟩ : BufTy).Contents (Elt Ideal))
    (x2 : (⟨Cert.KernelIdeal.S4096x32, .i32⟩ : BufTy).Contents (Elt Ideal)) :
    Cert.KernelIdeal.PQ.weights (F := Ideal) x1 x2 = Cert.ReferenceIdeal.Read.val_main_v17 (F := Ideal) x1 x2 := rfl

/-- Both programs end with the layer of the input and the common weight matrix: the kernel by the fold of its four
    block products per entry, the reference by its one contraction. -/
theorem algebraic : Cert.algebraic_KernelIdeal_ReferenceIdeal := by
  intro m ρ m' ρ' _ hagree
  refine ⟨_, Cert.KernelIdeal.PQ.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2, ← weights_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
